-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x256 .f32) (main_arg8 : FVec F S128x256 .f32) (main_arg9 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S256 .f32) (main_arg7 : FVec F S128x256 .f32) (main_arg8 : FVec F S128x256 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S256x256 .f32) (main_arg2 : FVec F S256x256 .f32) (main_arg3 : FVec F S256 .f32) (main_arg4 : FVec F S256x256 .f32) (main_arg5 : FVec F S256x256 .f32) (main_arg6 : FVec F S256 .f32) (main_arg7 : FVec F S128x256 .f32) (main_arg8 : FVec F S128x256 .f32) (main_arg9 : FVec F S128 .f32) (main_arg10 : IVec S800000 32) (main_arg11 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x512 : Shape := ⟨2, ![50000, 512]⟩
abbrev S256x512 : Shape := ⟨2, ![256, 512]⟩
abbrev S512x256 : Shape := ⟨2, ![512, 256]⟩
abbrev S1x256 : Shape := ⟨2, ![1, 256]⟩
abbrev S5000x512 : Shape := ⟨2, ![5000, 512]⟩
abbrev S5000x256 : Shape := ⟨2, ![5000, 256]⟩
abbrev S128x512 : Shape := ⟨2, ![128, 512]⟩
abbrev S512x128 : Shape := ⟨2, ![512, 128]⟩
abbrev S1x128 : Shape := ⟨2, ![1, 128]⟩
abbrev S50000x128 : Shape := ⟨2, ![50000, 128]⟩
abbrev S5000x128 : Shape := ⟨2, ![5000, 128]⟩

abbrev nBuf : Space → Nat
  | .hbm => 102
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128x256, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x512, .f32⟩
  | .hbm, ⟨38, _⟩ => ⟨S256x512, .f32⟩
  | .hbm, ⟨39, _⟩ => ⟨S512x256, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S50000x512, .f32⟩
  | .hbm, ⟨68, _⟩ => ⟨S256x512, .f32⟩
  | .hbm, ⟨69, _⟩ => ⟨S512x256, .f32⟩
  | .hbm, ⟨70, _⟩ => ⟨S1x256, .f32⟩
  | .hbm, ⟨71, _⟩ => ⟨S50000x256, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x256, .f32⟩
  | .hbm, ⟨81, _⟩ => ⟨S_, .f32⟩
  | .hbm, ⟨82, _⟩ => ⟨S50000x256, .f32⟩
  | .hbm, ⟨83, _⟩ => ⟨S800000x1, .i32⟩
  | .hbm, ⟨84, _⟩ => ⟨S50000x256, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x256, .f32⟩
  | .hbm, ⟨96, _⟩ => ⟨S50000x256, .f32⟩
  | .hbm, ⟨97, _⟩ => ⟨S50000x512, .f32⟩
  | .hbm, ⟨98, _⟩ => ⟨S128x512, .f32⟩
  | .hbm, ⟨99, _⟩ => ⟨S512x128, .f32⟩
  | .hbm, ⟨100, _⟩ => ⟨S1x128, .f32⟩
  | .hbm, ⟨101, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x512, .f32⟩
  | .local _ .vmem, ⟨7, _⟩ => ⟨S5000x512, .f32⟩
  | .local _ .vmem, ⟨8, _⟩ => ⟨S512x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x512, .f32⟩
  | .local _ .vmem, ⟨13, _⟩ => ⟨S5000x512, .f32⟩
  | .local _ .vmem, ⟨14, _⟩ => ⟨S512x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  concatenates_S256x256_S256x256_S256x512_d1 : Shape.Concatenates [S256x256, S256x256] S256x512 1
  transposes_S256x512_S512x256_1_0 : S256x512.Transposes [1, 0] S512x256
  shapeCasts_S256_S1x256 : S256.ShapeCasts S1x256
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  concatenates_S128x256_S128x256_S128x512_d1 : Shape.Concatenates [S128x256, S128x256] S128x512 1
  transposes_S128x512_S512x128_1_0 : S128x512.Transposes [1, 0] S512x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x512_S512x256_S5000x256_1_0_0_1_n_n_wf : DotDims.WF S5000x512 S512x256 S5000x256 [1] [0] [0] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x512.size a ≤ S50000x512.size a
  hwx2_0 : ∀ i : grid2.Coords, EltTy.bits .f32 = 32 ∨ (Rect.block (s := S50000x512) S5000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_v19) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S256x128 : Shape := ⟨2, ![256, 128]⟩
abbrev S50000x128 : Shape := ⟨2, ![50000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128x256, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S256x256, .f32⟩
  | .hbm, ⟨38, _⟩ => ⟨S50000x256, .f32⟩
  | .hbm, ⟨39, _⟩ => ⟨S256x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x256, .f32⟩
  | .hbm, ⟨74, _⟩ => ⟨S50000x256, .f32⟩
  | .hbm, ⟨75, _⟩ => ⟨S256x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x256, .f32⟩
  | .hbm, ⟨93, _⟩ => ⟨S_, .f32⟩
  | .hbm, ⟨94, _⟩ => ⟨S50000x256, .f32⟩
  | .hbm, ⟨95, _⟩ => ⟨S800000x1, .i32⟩
  | .hbm, ⟨96, _⟩ => ⟨S50000x256, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x256, .f32⟩
  | .hbm, ⟨108, _⟩ => ⟨S50000x256, .f32⟩
  | .hbm, ⟨109, _⟩ => ⟨S256x128, .f32⟩
  | .hbm, ⟨110, _⟩ => ⟨S50000x128, .f32⟩
  | .hbm, ⟨111, _⟩ => ⟨S256x128, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One SAGE layer with mean aggregation, as a function of its operands, entry by entry, on the extended reals.

  For node features `h` (one row per node), aggregated neighbour features `a`, weights `Ws`, `Wn` (one row per
  output feature) and a bias `b`, entry `(r, j)` of the layer before its activation is
      ∑ₖ h[r,k]·Ws[j,k]  +  ∑ₖ a[r,k]·Wn[j,k]  +  b[j].
  The same number is obtained from ONE product of the concatenated operands: with `cat = [h | a]` (512 columns) and
  `wc` the transpose of `[Ws | Wn]` (512 rows), `∑ₖ cat[r,k]·wc[k,j]` over the 512 columns splits into its first and
  last 256 terms, which are the two sums above. Only commutativity and associativity of `+` are used, so nothing
  is asked of the entries (they may be infinite).
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Sage

open Idealize.ShloMosaic Idealize.ShloMosaic.ValueIdx

/-- Arrays of extended reals over literal shapes. -/
abbrev Arr2 (r c : Nat) := (⟨⟨2, ![r, c]⟩, .f32⟩ : BufTy).Contents (Elt Ideal)
abbrev Arr1 (n : Nat) := (⟨⟨1, ![n]⟩, .f32⟩ : BufTy).Contents (Elt Ideal)

/-- The zero every activation compares with: the f32 word of +0, kept as a word. -/
abbrev zeroWord : Ideal .f32 := FloatOps.ofBits (F := Ideal) .f32 0x00000000#32

/-! ## The layer, entry by entry -/

/-- Entry `(r, j)` before the activation, 256 output features. -/
def entry256 (h a : Arr2 50000 256) (Ws Wn : Arr2 256 256) (b : Arr1 256) (r : Fin 50000) (j : Fin 256) : Ideal .f32 :=
  FloatOps.addf (F := Ideal) (φ := .f32) (FloatOps.addf (F := Ideal) (φ := .f32) (∑ k : Fin 256, h (ix2 r k) * Ws (ix2 j k)) (∑ k : Fin 256, a (ix2 r k) * Wn (ix2 j k))) (b (ix1 j))

/-- Entry `(r, j)` before the activation, 128 output features. -/
def entry128 (h a : Arr2 50000 256) (Ws Wn : Arr2 128 256) (b : Arr1 128) (r : Fin 50000) (j : Fin 128) : Ideal .f32 :=
  FloatOps.addf (F := Ideal) (φ := .f32) (FloatOps.addf (F := Ideal) (φ := .f32) (∑ k : Fin 256, h (ix2 r k) * Ws (ix2 j k)) (∑ k : Fin 256, a (ix2 r k) * Wn (ix2 j k))) (b (ix1 j))

/-- A hidden layer: the entry, then the maximum with zero. -/
def layer256 (h a : Arr2 50000 256) (Ws Wn : Arr2 256 256) (b : Arr1 256) : Arr2 50000 256 := fun i =>
  FloatOps.maximumf (F := Ideal) (φ := .f32) (entry256 h a Ws Wn b ⟨(i 0).val, idx2_lt0 i⟩ ⟨(i 1).val, idx2_lt1 i⟩) zeroWord

/-- The last layer: the entry, no activation. -/
def layer128 (h a : Arr2 50000 256) (Ws Wn : Arr2 128 256) (b : Arr1 128) : Arr2 50000 128 := fun i =>
  entry128 h a Ws Wn b ⟨(i 0).val, idx2_lt0 i⟩ ⟨(i 1).val, idx2_lt1 i⟩

/-! ## The same layer from ONE product of concatenated operands -/

/-- Entry `(r, j)` of `cat · wc + b2` (bias a one-row matrix), 256 output features. -/
def dense256Entry (cat : Arr2 50000 512) (wc : Arr2 512 256) (b2 : Arr2 1 256) (r : Fin 50000) (j : Fin 256) : Ideal .f32 :=
  FloatOps.addf (F := Ideal) (φ := .f32) (∑ k : Fin 512, cat (ix2 r k) * wc (ix2 k j)) (b2 (ix2 0 j))

/-- Entry `(r, j)` of `cat · wc + b2`, 128 output features. -/
def dense128Entry (cat : Arr2 50000 512) (wc : Arr2 512 128) (b2 : Arr2 1 128) (r : Fin 50000) (j : Fin 128) : Ideal .f32 :=
  FloatOps.addf (F := Ideal) (φ := .f32) (∑ k : Fin 512, cat (ix2 r k) * wc (ix2 k j)) (b2 (ix2 0 j))

/-- The product, the bias, the maximum with zero. -/
def dense256 (cat : Arr2 50000 512) (wc : Arr2 512 256) (b2 : Arr2 1 256) : Arr2 50000 256 := fun i =>
  FloatOps.maximumf (F := Ideal) (φ := .f32) (dense256Entry cat wc b2 ⟨(i 0).val, idx2_lt0 i⟩ ⟨(i 1).val, idx2_lt1 i⟩) zeroWord

/-- The product and the bias. -/
def dense128 (cat : Arr2 50000 512) (wc : Arr2 512 128) (b2 : Arr2 1 128) : Arr2 50000 128 := fun i =>
  dense128Entry cat wc b2 ⟨(i 0).val, idx2_lt0 i⟩ ⟨(i 1).val, idx2_lt1 i⟩

/-- A sum over 512 terms is the sum of its first 256 and of its last 256. -/
theorem sum_split (f : Fin 512 → EReal) :
    ∑ k : Fin 512, f k = ∑ k : Fin 256, f ⟨k.val, by omega⟩ + ∑ k : Fin 256, f ⟨k.val + 256, by omega⟩ := by
  have h := Fin.sum_univ_add (a := 256) (b := 256) (f := f)
  rw [h]
  refine congrArg₂ (· + ·) (Finset.sum_congr rfl fun k _ => congrArg f (Fin.ext rfl))
    (Finset.sum_congr rfl fun k _ => congrArg f (Fin.ext ?_))
  show 256 + k.val = k.val + 256
  omega

/-- With `cat = [h | a]` and `wc` the transpose of `[Ws | Wn]`, read entry by entry, and `b2` the bias as one row, the
    single product is the layer (256 output features). -/
theorem dense256_eq_layer (cat : Arr2 50000 512) (wc : Arr2 512 256) (b2 : Arr2 1 256)
    (h a : Arr2 50000 256) (Ws Wn : Arr2 256 256) (b : Arr1 256)
    (hcatL : ∀ (r : Fin 50000) (k : Fin 256), cat (ix2 r ⟨k.val, by omega⟩) = h (ix2 r k))
    (hcatR : ∀ (r : Fin 50000) (k : Fin 256), cat (ix2 r ⟨k.val + 256, by omega⟩) = a (ix2 r k))
    (hwL : ∀ (j : Fin 256) (k : Fin 256), wc (ix2 ⟨k.val, by omega⟩ j) = Ws (ix2 j k))
    (hwR : ∀ (j : Fin 256) (k : Fin 256), wc (ix2 ⟨k.val + 256, by omega⟩ j) = Wn (ix2 j k))
    (hb : ∀ j : Fin 256, b2 (ix2 0 j) = b (ix1 j)) :
    dense256 cat wc b2 = layer256 h a Ws Wn b := by
  funext i
  unfold dense256 layer256 dense256Entry entry256
  rw [sum_split (fun k => cat (ix2 _ k) * wc (ix2 k _)), hb]
  simp only [hcatL, hcatR, hwL, hwR]
  rfl

/-- The same for the last layer (128 output features, no activation). -/
theorem dense128_eq_layer (cat : Arr2 50000 512) (wc : Arr2 512 128) (b2 : Arr2 1 128)
    (h a : Arr2 50000 256) (Ws Wn : Arr2 128 256) (b : Arr1 128)
    (hcatL : ∀ (r : Fin 50000) (k : Fin 256), cat (ix2 r ⟨k.val, by omega⟩) = h (ix2 r k))
    (hcatR : ∀ (r : Fin 50000) (k : Fin 256), cat (ix2 r ⟨k.val + 256, by omega⟩) = a (ix2 r k))
    (hwL : ∀ (j : Fin 128) (k : Fin 256), wc (ix2 ⟨k.val, by omega⟩ j) = Ws (ix2 j k))
    (hwR : ∀ (j : Fin 128) (k : Fin 256), wc (ix2 ⟨k.val + 256, by omega⟩ j) = Wn (ix2 j k))
    (hb : ∀ j : Fin 128, b2 (ix2 0 j) = b (ix1 j)) :
    dense128 cat wc b2 = layer128 h a Ws Wn b := by
  funext i
  unfold dense128 layer128 dense128Entry entry128
  rw [sum_split (fun k => cat (ix2 _ k) * wc (ix2 k _)), hb]
  simp only [hcatL, hcatR, hwL, hwR]
  rfl

end Cert.Sage

end
-- ==== Proof.RefLayers.lean ====
/-
  The reference, layer by layer. Each of its three layers gathers the rows of the current features at the edge
  sources, adds them into the rows of the edge targets, divides by the in-degree (at least one), and then forms
  `h·Wsᵀ + agg·Wnᵀ + b` (with the maximum with zero after the first two layers). `meanAgg` names the aggregation as ONE
  function of the features and the two index arrays; `net` composes the three layers; `result_eq_net` says the
  reference's result is `net` of its arguments.
-/
import proofs.«134962_j996432413260_1_alg».proof.Proof.Gen.ReferenceIdeal.Run
import proofs.«134962_j996432413260_1_alg».proof.Proof.Gen.ReferenceIdeal.Read
import proofs.«134962_j996432413260_1_alg».proof.Proof.Spec

noncomputable section

namespace Cert.ReferenceIdeal.Layers

open Cert.ReferenceIdeal Cert.ReferenceIdeal.Gen Cert.ReferenceIdeal.Read
open Idealize.ShloMosaic Idealize.ShloMosaic.TcCoe Idealize.SL.Sem Idealize.ShloMosaic.StableHlo

/-- Mean over in-neighbours: row `d` of the result is the sum of the rows `h[src e]` over the edges `e` with `dst e = d`,
    divided by `max (number of such edges) 1`. Negative source indices are shifted up by the number of nodes first. -/
def meanAgg {F : FTy → Type} [FloatOps F] (h : (⟨S50000x256, .f32⟩ : BufTy).Contents (Elt F))
    (src dst : (⟨S800000, .i32⟩ : BufTy).Contents (Elt F)) : (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The three layers composed, on the extended reals. -/
def net (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x4 x5 : (⟨S256x256, .f32⟩ : BufTy).Contents (Elt Ideal)) (x6 : (⟨S256, .f32⟩ : BufTy).Contents (Elt Ideal))
    (x7 x8 : (⟨S128x256, .f32⟩ : BufTy).Contents (Elt Ideal)) (x9 : (⟨S128, .f32⟩ : BufTy).Contents (Elt Ideal))
    (x10 x11 : (⟨S800000, .i32⟩ : BufTy).Contents (Elt Ideal)) : (⟨S50000x128, .f32⟩ : BufTy).Contents (Elt Ideal) :=
  Cert.Sage.layer128
    (Cert.Sage.layer256 (Cert.Sage.layer256 x0 (meanAgg x0 x10 x11) x1 x2 x3)
      (meanAgg (Cert.Sage.layer256 x0 (meanAgg x0 x10 x11) x1 x2 x3) x10 x11) x4 x5 x6)
    (meanAgg (Cert.Sage.layer256 (Cert.Sage.layer256 x0 (meanAgg x0 x10 x11) x1 x2 x3)
      (meanAgg (Cert.Sage.layer256 x0 (meanAgg x0 x10 x11) x1 x2 x3) x10 x11) x4 x5 x6) x10 x11)
    x7 x8 x9

/-! ## The three aggregations

Each aggregation stage of the reference is the same composition of operations as `meanAgg`, applied to the features
of its layer; the two sides agree operation by operation. -/

/-- The first aggregation is the mean over in-neighbours of the input features. -/
theorem agg0_eq {F : FTy → Type} [FloatOps F] (x0 : (⟨S50000x256, .f32⟩ : BufTy).Contents (Elt F)) (x10 x11 : (⟨S800000, .i32⟩ : BufTy).Contents (Elt F)) :
    val_main_v18 (F := F) x0 x10 x11 = meanAgg x0 x10 x11 := rfl

/-- The second aggregation is the mean over in-neighbours of the first layer's output. -/
theorem agg1_eq {F : FTy → Type} [FloatOps F] (x0 : (⟨S50000x256, .f32⟩ : BufTy).Contents (Elt F)) (x1 x2 : (⟨S256x256, .f32⟩ : BufTy).Contents (Elt F)) (x3 : (⟨S256, .f32⟩ : BufTy).Contents (Elt F)) (x10 x11 : (⟨S800000, .i32⟩ : BufTy).Contents (Elt F)) :
    val_main_v46 (F := F) x0 x1 x2 x3 x10 x11 = meanAgg (val_main_v27 (F := F) x0 x1 x2 x3 x10 x11) x10 x11 := rfl

/-- The third aggregation is the mean over in-neighbours of the second layer's output. -/
theorem agg2_eq {F : FTy → Type} [FloatOps F] (x0 : (⟨S50000x256, .f32⟩ : BufTy).Contents (Elt F)) (x1 x2 : (⟨S256x256, .f32⟩ : BufTy).Contents (Elt F)) (x3 : (⟨S256, .f32⟩ : BufTy).Contents (Elt F)) (x4 x5 : (⟨S256x256, .f32⟩ : BufTy).Contents (Elt F)) (x6 : (⟨S256, .f32⟩ : BufTy).Contents (Elt F))
    (x10 x11 : (⟨S800000, .i32⟩ : BufTy).Contents (Elt F)) :
    val_main_v74 (F := F) x0 x1 x2 x3 x4 x5 x6 x10 x11
      = meanAgg (val_main_v55 (F := F) x0 x1 x2 x3 x4 x5 x6 x10 x11) x10 x11 := rfl

/-! ## The three layers

Entry `(r, j)` of a layer is read off the reference's operations: the two products contribute the sums over the
contracted axis (the transposed weights are read back at the swapped index), the broadcast bias contributes `b[j]`, and
the activation compares with the zero word. That is the entry of `Cert.Sage.layer256` / `layer128`; only the index
functions are written differently, and they agree coordinate by coordinate. -/

/-- Layer 0: features `x0`, their aggregation, weights `x1`, `x2`, bias `x3`. -/
theorem layer0_eq (x0 : (⟨S50000x256, .f32⟩ : BufTy).Contents (Elt Ideal)) (x1 x2 : (⟨S256x256, .f32⟩ : BufTy).Contents (Elt Ideal)) (x3 : (⟨S256, .f32⟩ : BufTy).Contents (Elt Ideal)) (x10 x11 : (⟨S800000, .i32⟩ : BufTy).Contents (Elt Ideal)) :
    val_main_v27 (F := Ideal) x0 x1 x2 x3 x10 x11
      = Cert.Sage.layer256 x0 (val_main_v18 (F := Ideal) x0 x10 x11) x1 x2 x3 := by
  funext i
  rw [val_main_v27_apply, val_main_v26_apply, val_main_v23_apply, val_main_v20_apply, val_main_v22_apply,
    val_main_v25_apply, val_main_v24_apply, val_main_call0_v0_apply, val_main_call0_cst_apply]
  simp only [val_main_v19_apply, val_main_v21_apply]
  generalize val_main_v18 (F := Ideal) x0 x10 x11 = A
  have e1 : ∀ k : Fin 256, lidx_main_v20 i k = ValueIdx.ix2 (⟨(i 0).val, ValueIdx.idx2_lt0 i⟩ : Fin 50000) k :=
    fun k => funext fun a => Fin.ext (by match a with | ⟨0, _⟩ => rfl | ⟨1, _⟩ => rfl)
  have e2 : ∀ k : Fin 256, idx_main_v19 (ridx_main_v20 i k) = ValueIdx.ix2 (⟨(i 1).val, ValueIdx.idx2_lt1 i⟩ : Fin 256) k :=
    fun k => funext fun a => Fin.ext (by match a with | ⟨0, _⟩ => rfl | ⟨1, _⟩ => rfl)
  have e3 : ∀ k : Fin 256, lidx_main_v22 i k = ValueIdx.ix2 (⟨(i 0).val, ValueIdx.idx2_lt0 i⟩ : Fin 50000) k :=
    fun k => funext fun a => Fin.ext (by match a with | ⟨0, _⟩ => rfl | ⟨1, _⟩ => rfl)
  have e4 : ∀ k : Fin 256, idx_main_v21 (ridx_main_v22 i k) = ValueIdx.ix2 (⟨(i 1).val, ValueIdx.idx2_lt1 i⟩ : Fin 256) k :=
    fun k => funext fun a => Fin.ext (by match a with | ⟨0, _⟩ => rfl | ⟨1, _⟩ => rfl)
  have e5 : idx_main_v24 (idx_main_v25 i) = ValueIdx.ix1 (⟨(i 1).val, ValueIdx.idx2_lt1 i⟩ : Fin 256) :=
    funext fun a => Fin.ext (by match a with | ⟨0, _⟩ => rfl)
  simp only [e1, e2, e3, e4, e5]
  rfl

/-- Layer 1: the first layer's output, its aggregation, weights `x4`, `x5`, bias `x6`. -/
theorem layer1_eq (x0 : (⟨S50000x256, .f32⟩ : BufTy).Contents (Elt Ideal)) (x1 x2 : (⟨S256x256, .f32⟩ : BufTy).Contents (Elt Ideal)) (x3 : (⟨S256, .f32⟩ : BufTy).Contents (Elt Ideal)) (x4 x5 : (⟨S256x256, .f32⟩ : BufTy).Contents (Elt Ideal)) (x6 : (⟨S256, .f32⟩ : BufTy).Contents (Elt Ideal)) (x10 x11 : (⟨S800000, .i32⟩ : BufTy).Contents (Elt Ideal)) :
    val_main_v55 (F := Ideal) x0 x1 x2 x3 x4 x5 x6 x10 x11
      = Cert.Sage.layer256 (val_main_v27 (F := Ideal) x0 x1 x2 x3 x10 x11)
          (val_main_v46 (F := Ideal) x0 x1 x2 x3 x10 x11) x4 x5 x6 := by
  funext i
  rw [val_main_v55_apply, val_main_v54_apply, val_main_v51_apply, val_main_v48_apply, val_main_v50_apply,
    val_main_v53_apply, val_main_v52_apply, val_main_call1_v0_apply, val_main_call1_cst_apply]
  simp only [val_main_v47_apply, val_main_v49_apply]
  generalize val_main_v27 (F := Ideal) x0 x1 x2 x3 x10 x11 = H
  generalize val_main_v46 (F := Ideal) x0 x1 x2 x3 x10 x11 = A
  have e1 : ∀ k : Fin 256, lidx_main_v48 i k = ValueIdx.ix2 (⟨(i 0).val, ValueIdx.idx2_lt0 i⟩ : Fin 50000) k :=
    fun k => funext fun a => Fin.ext (by match a with | ⟨0, _⟩ => rfl | ⟨1, _⟩ => rfl)
  have e2 : ∀ k : Fin 256, idx_main_v47 (ridx_main_v48 i k) = ValueIdx.ix2 (⟨(i 1).val, ValueIdx.idx2_lt1 i⟩ : Fin 256) k :=
    fun k => funext fun a => Fin.ext (by match a with | ⟨0, _⟩ => rfl | ⟨1, _⟩ => rfl)
  have e3 : ∀ k : Fin 256, lidx_main_v50 i k = ValueIdx.ix2 (⟨(i 0).val, ValueIdx.idx2_lt0 i⟩ : Fin 50000) k :=
    fun k => funext fun a => Fin.ext (by match a with | ⟨0, _⟩ => rfl | ⟨1, _⟩ => rfl)
  have e4 : ∀ k : Fin 256, idx_main_v49 (ridx_main_v50 i k) = ValueIdx.ix2 (⟨(i 1).val, ValueIdx.idx2_lt1 i⟩ : Fin 256) k :=
    fun k => funext fun a => Fin.ext (by match a with | ⟨0, _⟩ => rfl | ⟨1, _⟩ => rfl)
  have e5 : idx_main_v52 (idx_main_v53 i) = ValueIdx.ix1 (⟨(i 1).val, ValueIdx.idx2_lt1 i⟩ : Fin 256) :=
    funext fun a => Fin.ext (by match a with | ⟨0, _⟩ => rfl)
  simp only [e1, e2, e3, e4, e5]
  rfl

/-- Layer 2 (no activation): the second layer's output, its aggregation, weights `x7`, `x8`, bias `x9`. -/
theorem layer2_eq (x0 : (⟨S50000x256, .f32⟩ : BufTy).Contents (Elt Ideal)) (x1 x2 : (⟨S256x256, .f32⟩ : BufTy).Contents (Elt Ideal)) (x3 : (⟨S256, .f32⟩ : BufTy).Contents (Elt Ideal)) (x4 x5 : (⟨S256x256, .f32⟩ : BufTy).Contents (Elt Ideal)) (x6 : (⟨S256, .f32⟩ : BufTy).Contents (Elt Ideal))
    (x7 x8 : (⟨S128x256, .f32⟩ : BufTy).Contents (Elt Ideal)) (x9 : (⟨S128, .f32⟩ : BufTy).Contents (Elt Ideal)) (x10 x11 : (⟨S800000, .i32⟩ : BufTy).Contents (Elt Ideal)) :
    val_main_v82 (F := Ideal) x0 x1 x2 x3 x4 x5 x6 x7 x8 x9 x10 x11
      = Cert.Sage.layer128 (val_main_v55 (F := Ideal) x0 x1 x2 x3 x4 x5 x6 x10 x11)
          (val_main_v74 (F := Ideal) x0 x1 x2 x3 x4 x5 x6 x10 x11) x7 x8 x9 := by
  funext i
  rw [val_main_v82_apply, val_main_v79_apply, val_main_v76_apply, val_main_v78_apply,
    val_main_v81_apply, val_main_v80_apply]
  simp only [val_main_v75_apply, val_main_v77_apply]
  generalize val_main_v55 (F := Ideal) x0 x1 x2 x3 x4 x5 x6 x10 x11 = H
  generalize val_main_v74 (F := Ideal) x0 x1 x2 x3 x4 x5 x6 x10 x11 = A
  have e1 : ∀ k : Fin 256, lidx_main_v76 i k = ValueIdx.ix2 (⟨(i 0).val, ValueIdx.idx2_lt0 i⟩ : Fin 50000) k :=
    fun k => funext fun a => Fin.ext (by match a with | ⟨0, _⟩ => rfl | ⟨1, _⟩ => rfl)
  have e2 : ∀ k : Fin 256, idx_main_v75 (ridx_main_v76 i k) = ValueIdx.ix2 (⟨(i 1).val, ValueIdx.idx2_lt1 i⟩ : Fin 128) k :=
    fun k => funext fun a => Fin.ext (by match a with | ⟨0, _⟩ => rfl | ⟨1, _⟩ => rfl)
  have e3 : ∀ k : Fin 256, lidx_main_v78 i k = ValueIdx.ix2 (⟨(i 0).val, ValueIdx.idx2_lt0 i⟩ : Fin 50000) k :=
    fun k => funext fun a => Fin.ext (by match a with | ⟨0, _⟩ => rfl | ⟨1, _⟩ => rfl)
  have e4 : ∀ k : Fin 256, idx_main_v77 (ridx_main_v78 i k) = ValueIdx.ix2 (⟨(i 1).val, ValueIdx.idx2_lt1 i⟩ : Fin 128) k :=
    fun k => funext fun a => Fin.ext (by match a with | ⟨0, _⟩ => rfl | ⟨1, _⟩ => rfl)
  have e5 : idx_main_v80 (idx_main_v81 i) = ValueIdx.ix1 (⟨(i 1).val, ValueIdx.idx2_lt1 i⟩ : Fin 128) :=
    funext fun a => Fin.ext (by match a with | ⟨0, _⟩ => rfl)
  simp only [e1, e2, e3, e4, e5]
  rfl

/-- The reference's result is the three layers of its arguments. -/
theorem result_eq_net (m : (ℓ : Loc nD τ sig) → Buf (Elt Ideal) ℓ) (c : Dev nD) :
    Cert.ReferenceIdeal.Value.res_main_v82 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [Cert.ReferenceIdeal.Read.val_main_v82_eq, layer2_eq, agg2_eq, layer1_eq, agg1_eq, layer0_eq, agg0_eq]
  rfl

end Cert.ReferenceIdeal.Layers

end
-- ==== Proof.KDot256.lean ====
/-
  The two vector operations of a kernel body that are not entrywise, read at one entry of a block of 5000 rows and
  256 output features: the matrix product of a [5000, 512] block with a [512, 256] matrix into a zero accumulator is, at
  `(p, q)`, the sum over the 512 columns `k` of `y0[p,k]·y1[k,q]`; the one-row bias spread over the rows is, at `(p, q)`,
  the row's entry `q`.
-/
import proofs.«134962_j996432413260_1_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Dot256

open Cert.KernelIdeal Cert.KernelIdeal.Gen Idealize.ShloMosaic Idealize.ShloMosaic.ValueIdx

theorem lhs256_0 (i : S5000x256.Idx) (q : dot_S5000x512_S512x256_S5000x256_1_0_0_1_n_n.contr.Idx) :
    (dot_S5000x512_S512x256_S5000x256_1_0_0_1_n_n.lhsIdx i q 0).val = (i 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem lhs256_1 (i : S5000x256.Idx) (q : dot_S5000x512_S512x256_S5000x256_1_0_0_1_n_n.contr.Idx) :
    (dot_S5000x512_S512x256_S5000x256_1_0_0_1_n_n.lhsIdx i q 1).val = (q ⟨0, by decide⟩).val :=
  dot_S5000x512_S512x256_S5000x256_1_0_0_1_n_n.lhsIdx_val_of_single rfl i q
theorem rhs256_0 (i : S5000x256.Idx) (q : dot_S5000x512_S512x256_S5000x256_1_0_0_1_n_n.contr.Idx) :
    (dot_S5000x512_S512x256_S5000x256_1_0_0_1_n_n.rhsIdx i q 0).val = (q ⟨0, by decide⟩).val :=
  dot_S5000x512_S512x256_S5000x256_1_0_0_1_n_n.rhsIdx_val_of_single rfl i q
theorem rhs256_1 (i : S5000x256.Idx) (q : dot_S5000x512_S512x256_S5000x256_1_0_0_1_n_n.contr.Idx) :
    (dot_S5000x512_S512x256_S5000x256_1_0_0_1_n_n.rhsIdx i q 1).val = (i 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- The matrix product into a zero accumulator, at entry `(p, q)`: the sum over the 512 columns of the left block. -/
theorem matmul256_apply (y0 : FVec Ideal S5000x512 .bf16) (y1 : FVec Ideal S512x256 .bf16) (p : Fin 5000) (q : Fin 256) :
    (matmul dot_S5000x512_S512x256_S5000x256_1_0_0_1_n_n none y0 y1 (constant S5000x256 .f32 0x00000000#32) : FVec Ideal S5000x256 .f32) (ix2 p q)
      = ∑ k : Fin 512, y0 (ix2 p k) * y1 (ix2 k q) := by
  show FloatOps.matmul dot_S5000x512_S512x256_S5000x256_1_0_0_1_n_n none y0 y1 (constant S5000x256 .f32 0x00000000#32) (ix2 p q) = _
  rw [Ideal.matmul_constant_zero_apply, ← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx (ix2 p q) ((ValueIdx.contrEquiv1 dot_S5000x512_S512x256_S5000x256_1_0_0_1_n_n 512 rfl rfl).symm k) = ix2 p k := funext fun a => Fin.ext (by
    match a with
    | ⟨0, _⟩ => exact lhs256_0 _ _
    | ⟨1, _⟩ => exact (lhs256_1 _ _).trans hk)
  have er : dot_S5000x512_S512x256_S5000x256_1_0_0_1_n_n.rhsIdx (ix2 p q) ((ValueIdx.contrEquiv1 dot_S5000x512_S512x256_S5000x256_1_0_0_1_n_n 512 rfl rfl).symm k) = ix2 k q := funext fun a => Fin.ext (by
    match a with
    | ⟨0, _⟩ => exact (rhs256_0 _ _).trans hk
    | ⟨1, _⟩ => exact rhs256_1 _ _)
  rw [el, er]

/-- The one-row bias spread over the block's rows, at entry `(p, q)`: the row's entry `q`. -/
theorem bias256_apply (x2 : Vec Ideal S1x256 .f32) (p : Fin 5000) (q : Fin 256) :
    (broadcastTo S5000x256 x2 broadcasts_S1x256_S5000x256 : FVec Ideal S5000x256 .f32) (ix2 p q) = x2 (ix2 0 q) :=
  broadcastTo_apply x2 broadcasts_S1x256_S5000x256 (ix2 p q) (ix2 0 q) fun a => by
    match a with
    | ⟨0, _⟩ => show 0 = if (1 : Nat) = 1 then 0 else _; rw [if_pos rfl]
    | ⟨1, _⟩ => show q.val = if (256 : Nat) = 1 then 0 else q.val; rw [if_neg (by decide)]

end Cert.KernelIdeal.Dot256

end
-- ==== Proof.KDot128.lean ====
/-
  The two vector operations of a kernel body that are not entrywise, read at one entry of a block of 5000 rows and
  128 output features: the matrix product of a [5000, 512] block with a [512, 128] matrix into a zero accumulator is, at
  `(p, q)`, the sum over the 512 columns `k` of `y0[p,k]·y1[k,q]`; the one-row bias spread over the rows is, at `(p, q)`,
  the row's entry `q`.
-/
import proofs.«134962_j996432413260_1_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Dot128

open Cert.KernelIdeal Cert.KernelIdeal.Gen Idealize.ShloMosaic Idealize.ShloMosaic.ValueIdx

theorem lhs128_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs128_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs128_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs128_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The matrix product into a zero accumulator, at entry `(p, q)`: the sum over the 512 columns of the left block. -/
theorem matmul128_apply (y0 : FVec Ideal S5000x512 .bf16) (y1 : FVec Ideal S512x128 .bf16) (p : Fin 5000) (q : Fin 128) :
    (matmul dot_S5000x512_S512x128_S5000x128_1_0_0_1_n_n none y0 y1 (constant S5000x128 .f32 0x00000000#32) : FVec Ideal S5000x128 .f32) (ix2 p q)
      = ∑ k : Fin 512, y0 (ix2 p k) * y1 (ix2 k q) := by
  show FloatOps.matmul dot_S5000x512_S512x128_S5000x128_1_0_0_1_n_n none y0 y1 (constant S5000x128 .f32 0x00000000#32) (ix2 p q) = _
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx (ix2 p q) ((ValueIdx.contrEquiv1 dot_S5000x512_S512x128_S5000x128_1_0_0_1_n_n 512 rfl rfl).symm k) = ix2 p k := funext fun a => Fin.ext (by
    match a with
    | ⟨0, _⟩ => exact lhs128_0 _ _
    | ⟨1, _⟩ => exact (lhs128_1 _ _).trans hk)
  have er : dot_S5000x512_S512x128_S5000x128_1_0_0_1_n_n.rhsIdx (ix2 p q) ((ValueIdx.contrEquiv1 dot_S5000x512_S512x128_S5000x128_1_0_0_1_n_n 512 rfl rfl).symm k) = ix2 k q := funext fun a => Fin.ext (by
    match a with
    | ⟨0, _⟩ => exact (rhs128_0 _ _).trans hk
    | ⟨1, _⟩ => exact rhs128_1 _ _)
  rw [el, er]

/-- The one-row bias spread over the block's rows, at entry `(p, q)`: the row's entry `q`. -/
theorem bias128_apply (x2 : Vec Ideal S1x128 .f32) (p : Fin 5000) (q : Fin 128) :
    (broadcastTo S5000x128 x2 broadcasts_S1x128_S5000x128 : FVec Ideal S5000x128 .f32) (ix2 p q) = x2 (ix2 0 q) :=
  broadcastTo_apply x2 broadcasts_S1x128_S5000x128 (ix2 p q) (ix2 0 q) fun a => by
    match a with
    | ⟨0, _⟩ => show 0 = if (1 : Nat) = 1 then 0 else _; rw [if_pos rfl]
    | ⟨1, _⟩ => show q.val = if (128 : Nat) = 1 then 0 else q.val; rw [if_neg (by decide)]

end Cert.KernelIdeal.Dot128

end
-- ==== Proof.KPay.lean ====
/-
  The body of each of the three kernels, read at one entry of its output block. A body loads a block of 5000 rows of
  the concatenated features (512 columns), the whole combined weight matrix (512 rows) and the one-row bias, and stores
      max(∑ₖ x0[p,k]·x1[k,q] + x2[0,q], 0)        (the last kernel without the maximum)
  at entry `(p, q)`. The narrowing of the operands to bf16 before the product is the identity on the extended reals.
-/
import proofs.«134962_j996432413260_1_alg».proof.Proof.Gen.KernelIdeal.Skeleton
import proofs.«134962_j996432413260_1_alg».proof.Proof.KDot256
import proofs.«134962_j996432413260_1_alg».proof.Proof.KDot128
import proofs.«134962_j996432413260_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Cert.KernelIdeal.Dot256 Cert.KernelIdeal.Dot128

/-! ## The three payloads -/

/-- First kernel: entry `(p, q)` of what the body stores. -/
theorem pay0_apply (x0 : Vec Ideal S5000x512 .f32) (x1 : Vec Ideal S512x256 .f32) (x2 : Vec Ideal S1x256 .f32) (p : Fin 5000) (q : Fin 256) :
    k0_pay1 (F := Ideal) x0 x1 x2 (ix2 p q)
      = FloatOps.maximumf (F := Ideal) (φ := .f32) (FloatOps.addf (F := Ideal) (φ := .f32) (∑ k : Fin 512, x0 (ix2 p k) * x1 (ix2 k q)) (x2 (ix2 0 q))) Cert.Sage.zeroWord := by
  unfold k0_pay1
  simp only [shapeCast_self]
  show FloatOps.maximumf (F := Ideal) (φ := .f32) (FloatOps.addf (F := Ideal) (φ := .f32) ((matmul dot_S5000x512_S512x256_S5000x256_1_0_0_1_n_n none (truncf .bf16 x0 bitsLt_bf16_f32) (truncf .bf16 x1 bitsLt_bf16_f32) (constant S5000x256 .f32 0x00000000#32) : FVec Ideal S5000x256 .f32) (ix2 p q)) ((broadcastTo S5000x256 x2 broadcasts_S1x256_S5000x256 : FVec Ideal S5000x256 .f32) (ix2 p q))) Cert.Sage.zeroWord = _
  rw [matmul256_apply, bias256_apply]
  rfl

/-- Second kernel: the same body. -/
theorem pay1_apply (x0 : Vec Ideal S5000x512 .f32) (x1 : Vec Ideal S512x256 .f32) (x2 : Vec Ideal S1x256 .f32) (p : Fin 5000) (q : Fin 256) :
    k1_pay1 (F := Ideal) x0 x1 x2 (ix2 p q)
      = FloatOps.maximumf (F := Ideal) (φ := .f32) (FloatOps.addf (F := Ideal) (φ := .f32) (∑ k : Fin 512, x0 (ix2 p k) * x1 (ix2 k q)) (x2 (ix2 0 q))) Cert.Sage.zeroWord := by
  unfold k1_pay1
  simp only [shapeCast_self]
  show FloatOps.maximumf (F := Ideal) (φ := .f32) (FloatOps.addf (F := Ideal) (φ := .f32) ((matmul dot_S5000x512_S512x256_S5000x256_1_0_0_1_n_n none (truncf .bf16 x0 bitsLt_bf16_f32) (truncf .bf16 x1 bitsLt_bf16_f32) (constant S5000x256 .f32 0x00000000#32) : FVec Ideal S5000x256 .f32) (ix2 p q)) ((broadcastTo S5000x256 x2 broadcasts_S1x256_S5000x256 : FVec Ideal S5000x256 .f32) (ix2 p q))) Cert.Sage.zeroWord = _
  rw [matmul256_apply, bias256_apply]
  rfl

/-- Third kernel: 128 output features, no maximum. -/
theorem pay2_apply (x0 : Vec Ideal S5000x512 .f32) (x1 : Vec Ideal S512x128 .f32) (x2 : Vec Ideal S1x128 .f32) (p : Fin 5000) (q : Fin 128) :
    k2_pay1 (F := Ideal) x0 x1 x2 (ix2 p q)
      = FloatOps.addf (F := Ideal) (φ := .f32) (∑ k : Fin 512, x0 (ix2 p k) * x1 (ix2 k q)) (x2 (ix2 0 q)) := by
  unfold k2_pay1
  simp only [shapeCast_self]
  show FloatOps.addf (F := Ideal) (φ := .f32) ((matmul dot_S5000x512_S512x128_S5000x128_1_0_0_1_n_n none (truncf .bf16 x0 bitsLt_bf16_f32) (truncf .bf16 x1 bitsLt_bf16_f32) (constant S5000x128 .f32 0x00000000#32) : FVec Ideal S5000x128 .f32) (ix2 p q)) ((broadcastTo S5000x128 x2 broadcasts_S1x128_S5000x128 : FVec Ideal S5000x128 .f32) (ix2 p q)) = _
  rw [matmul128_apply, bias128_apply]
  rfl

end Cert.KernelIdeal.Pay

end
-- ==== Proof.KRegion0.lean ====
/-
  The first kernel region as one function of the arrays it reads. The region runs ten grid points; point `t` reads rows
  `5000·t … 5000·t + 4999` of the concatenated features, the whole combined weight matrix and the bias row, and writes back
  the same rows of the output. Every output entry `(r, j)` therefore ends as
      max(∑ₖ cat[r,k]·wc[k,j] + b2[0,j], 0),
  the ten row blocks covering the 50000 rows.
-/
import proofs.«134962_j996432413260_1_alg».proof.Proof.Gen.KernelIdeal.Frame
import proofs.«134962_j996432413260_1_alg».proof.Proof.KPay
import proofs.«134962_j996432413260_1_alg».proof.Proof.Spec
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at grid point `t`: the features and the output move down one block of rows
    per point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- One entry of what a point stores is the dense layer's entry at the row the point's block starts at plus the
    row inside the block — stated over a block, a matrix and a bias row that read the arrays as hypotheses say. -/
theorem point_eq (x0 : Vec Ideal S5000x512 .f32) (x1 : Vec Ideal S512x256 .f32) (x2 : Vec Ideal S1x256 .f32)
    (cat : Cert.Sage.Arr2 50000 512) (wc : Cert.Sage.Arr2 512 256) (b2 : Cert.Sage.Arr2 1 256) (tv : Nat) (htv : tv < 10)
    (h0 : ∀ (p : Fin 5000) (k : Fin 512), x0 (ix2 p k) = cat (ix2 ⟨tv * 5000 + p.val, by omega⟩ k))
    (h1 : ∀ (k : Fin 512) (q : Fin 256), x1 (ix2 k q) = wc (ix2 k q))
    (h2 : ∀ q : Fin 256, x2 (ix2 0 q) = b2 (ix2 0 q))
    (j : S5000x256.Idx) (i : S50000x256.Idx) (hi0 : (i 0).val = tv * 5000 + (j 0).val) (hi1 : (i 1).val = (j 1).val) :
    k0_pay1 (F := Ideal) x0 x1 x2 j = Cert.Sage.dense256 cat wc b2 i := by
  obtain ⟨p, q, rfl⟩ : ∃ (p : Fin 5000) (q : Fin 256), j = ix2 p q := ⟨j 0, j 1, eq_ix2 j⟩
  rw [Cert.KernelIdeal.Pay.pay0_apply]
  unfold Cert.Sage.dense256 Cert.Sage.dense256Entry
  have e0 : (⟨(i 0).val, idx2_lt0 i⟩ : Fin 50000) = ⟨tv * 5000 + p.val, by omega⟩ := Fin.ext hi0
  have e1 : (⟨(i 1).val, idx2_lt1 i⟩ : Fin 256) = q := Fin.ext hi1
  rw [e0, e1]
  simp only [h0, h1, h2]

/-- A point's block of the features is the rows of the array it starts at. -/
theorem iblk_cat (c : Dev nD) (t : Fin cfg0.N) (p : Fin 5000) (k : Fin 512) (ht : t.val < 10) :
    (iblk0 V c 0 t : Vec Ideal S5000x512 .f32) (ix2 p k)
      = (V c main_v19 : Cert.Sage.Arr2 50000 512) (ix2 ⟨t.val * 5000 + p.val, by omega⟩ k) := by
  obtain ⟨e00, e01, -⟩ := idx_facts t
  unfold iblk0
  rw [View.read_apply]
  show V c main_v19 _ = V c main_v19 _
  refine congrArg (V c main_v19) (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 512 + 1 * k.val = k.val; rw [e01]; omega

/-- Every point's block of the weights is the whole matrix. -/
theorem iblk_wc (c : Dev nD) (t : Fin cfg0.N) (k : Fin 512) (q : Fin 256) :
    (iblk0 V c 1 t : Vec Ideal S512x256 .f32) (ix2 k q) = (V c main_v21 : Cert.Sage.Arr2 512 256) (ix2 k q) := by
  obtain ⟨-, -, e10, e11, -⟩ := idx_facts t
  unfold iblk0
  rw [View.read_apply]
  show V c main_v21 _ = V c main_v21 _
  refine congrArg (V c main_v21) (funext fun a => Fin.ext ?_)
  match a with
  | ⟨0, _⟩ => show win0_1.index t (0 : Fin 2) * 512 + 1 * k.val = k.val; rw [e10]; omega
  | ⟨1, _⟩ => show win0_1.index t (1 : Fin 2) * 256 + 1 * q.val = q.val; rw [e11]; omega

/-- Every point's block of the bias is the whole row. -/
theorem iblk_b2 (c : Dev nD) (t : Fin cfg0.N) (q : Fin 256) :
    (iblk0 V c 2 t : Vec Ideal S1x256 .f32) (ix2 0 q) = (V c main_v22 : Cert.Sage.Arr2 1 256) (ix2 0 q) := by
  obtain ⟨-, -, -, -, e20, e21, -⟩ := idx_facts t
  unfold iblk0
  rw [View.read_apply]
  show V c main_v22 _ = V c main_v22 _
  refine congrArg (V c main_v22) (funext fun a => Fin.ext ?_)
  match a with
  | ⟨0, _⟩ => show win0_2.index t (0 : Fin 2) * 1 + 1 * 0 = 0; rw [e20]
  | ⟨1, _⟩ => show win0_2.index t (1 : Fin 2) * 256 + 1 * q.val = q.val; rw [e21]; omega

/-- What point `t` writes back is block `t` of the dense layer of the arrays as the region finds them. -/
theorem flushed_eq (c : Dev nD) (t : Fin cfg0.N) :
    (dat0 V c).flushed 3 t = ((cfg0.win 3).blk t).view.read (Elt Ideal)
      (Cert.Sage.dense256 (V c main_v19) (V c main_v21) (V c main_v22)) := by
  obtain ⟨-, -, -, -, -, -, e30, e31, ht⟩ := idx_facts t
  show (cfg0.win 3).cut (grid0.coords t) ((dat0 V c).after 3 t) = _
  rw [after0_3]
  unfold out0_3
  rw [View.canon_unit_zero hz]
  simp only [View.ld_unit_zero (S := S5000x512) hz, View.ld_unit_zero (S := S512x256) hz, View.ld_unit_zero (S := S1x256) hz]
  funext j
  show k0_pay1 (F := Ideal) (iblk0 V c 0 t) (iblk0 V c 1 t) (iblk0 V c 2 t) j
    = Cert.Sage.dense256 (V c main_v19) (V c main_v21) (V c main_v22) (((cfg0.win 3).blk t).view.emb j)
  exact point_eq (iblk0 V c 0 t) (iblk0 V c 1 t) (iblk0 V c 2 t) (V c main_v19) (V c main_v21) (V c main_v22) t.val ht
    (fun p k => iblk_cat V c t p k ht) (fun k q => iblk_wc V c t k q) (fun q => iblk_b2 V c t q) j (((cfg0.win 3).blk t).view.emb j)
    (by show win0_3.index t (0 : Fin 2) * 5000 + 1 * (j 0).val = t.val * 5000 + (j 0).val; rw [e30]; omega)
    (by show win0_3.index t (1 : Fin 2) * 256 + 1 * (j 1).val = (j 1).val; rw [e31]; omega)

/-- An index of the output is in point `t`'s block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v23).slice (win0_3.rect t)).set ↔ _
  rw [View.set_slice_whole, Rect.mem_set_unit]
  exact Iff.rfl

/-- The ten row blocks cover the output: row `r` is in the block of point `r / 5000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_3 _, ?_⟩
  obtain ⟨-, -, -, -, -, -, e30, e31, -⟩ := idx_facts ⟨(i 0).val / 5000, by rw [hN]; omega⟩
  rw [mem_blk]
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 256 ≤ (i 1).val ∧ (i 1).val < win0_3.index _ (1 : Fin 2) * 256 + 256; rw [e31]; omega

/-- The output array after the region: the dense layer of the arrays as the region finds them. -/
theorem final (c : Dev nD) : (dat0 V c).arrAt 3 cfg0.N
    = Cert.Sage.dense256 (V c main_v19) (V c main_v21) (V c main_v22) :=
  (dat0 V c).arrAt_eq_of_cover 3 (Cert.Sage.dense256 (V c main_v19) (V c main_v21) (V c main_v22))
    (fun t _ => flushed_eq V c t) cover

end Cert.KernelIdeal.Region0

end
-- ==== Proof.KRegion1.lean ====
/-
  The second kernel region as one function of the arrays it reads. The region runs ten grid points; point `t` reads rows
  `5000·t … 5000·t + 4999` of the concatenated features, the whole combined weight matrix and the bias row, and writes back
  the same rows of the output. Every output entry `(r, j)` therefore ends as
      max(∑ₖ cat[r,k]·wc[k,j] + b2[0,j], 0),
  the ten row blocks covering the 50000 rows.
-/
import proofs.«134962_j996432413260_1_alg».proof.Proof.Gen.KernelIdeal.Frame
import proofs.«134962_j996432413260_1_alg».proof.Proof.KPay
import proofs.«134962_j996432413260_1_alg».proof.Proof.Spec
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at grid point `t`: the features and the output move down one block of rows
    per point, the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- One entry of what a point stores is the dense layer's entry at the row the point's block starts at plus the
    row inside the block — stated over a block, a matrix and a bias row that read the arrays as hypotheses say. -/
theorem point_eq (x0 : Vec Ideal S5000x512 .f32) (x1 : Vec Ideal S512x256 .f32) (x2 : Vec Ideal S1x256 .f32)
    (cat : Cert.Sage.Arr2 50000 512) (wc : Cert.Sage.Arr2 512 256) (b2 : Cert.Sage.Arr2 1 256) (tv : Nat) (htv : tv < 10)
    (h0 : ∀ (p : Fin 5000) (k : Fin 512), x0 (ix2 p k) = cat (ix2 ⟨tv * 5000 + p.val, by omega⟩ k))
    (h1 : ∀ (k : Fin 512) (q : Fin 256), x1 (ix2 k q) = wc (ix2 k q))
    (h2 : ∀ q : Fin 256, x2 (ix2 0 q) = b2 (ix2 0 q))
    (j : S5000x256.Idx) (i : S50000x256.Idx) (hi0 : (i 0).val = tv * 5000 + (j 0).val) (hi1 : (i 1).val = (j 1).val) :
    k1_pay1 (F := Ideal) x0 x1 x2 j = Cert.Sage.dense256 cat wc b2 i := by
  obtain ⟨p, q, rfl⟩ : ∃ (p : Fin 5000) (q : Fin 256), j = ix2 p q := ⟨j 0, j 1, eq_ix2 j⟩
  rw [Cert.KernelIdeal.Pay.pay1_apply]
  unfold Cert.Sage.dense256 Cert.Sage.dense256Entry
  have e0 : (⟨(i 0).val, idx2_lt0 i⟩ : Fin 50000) = ⟨tv * 5000 + p.val, by omega⟩ := Fin.ext hi0
  have e1 : (⟨(i 1).val, idx2_lt1 i⟩ : Fin 256) = q := Fin.ext hi1
  rw [e0, e1]
  simp only [h0, h1, h2]

/-- A point's block of the features is the rows of the array it starts at. -/
theorem iblk_cat (c : Dev nD) (t : Fin cfg1.N) (p : Fin 5000) (k : Fin 512) (ht : t.val < 10) :
    (iblk1 V c 0 t : Vec Ideal S5000x512 .f32) (ix2 p k)
      = (V c main_v43 : Cert.Sage.Arr2 50000 512) (ix2 ⟨t.val * 5000 + p.val, by omega⟩ k) := by
  obtain ⟨e00, e01, -⟩ := idx_facts t
  unfold iblk1
  rw [View.read_apply]
  show V c main_v43 _ = V c main_v43 _
  refine congrArg (V c main_v43) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 512 + 1 * k.val = k.val; rw [e01]; omega

/-- Every point's block of the weights is the whole matrix. -/
theorem iblk_wc (c : Dev nD) (t : Fin cfg1.N) (k : Fin 512) (q : Fin 256) :
    (iblk1 V c 1 t : Vec Ideal S512x256 .f32) (ix2 k q) = (V c main_v45 : Cert.Sage.Arr2 512 256) (ix2 k q) := by
  obtain ⟨-, -, e10, e11, -⟩ := idx_facts t
  unfold iblk1
  rw [View.read_apply]
  show V c main_v45 _ = V c main_v45 _
  refine congrArg (V c main_v45) (funext fun a => Fin.ext ?_)
  match a with
  | ⟨0, _⟩ => show win1_1.index t (0 : Fin 2) * 512 + 1 * k.val = k.val; rw [e10]; omega
  | ⟨1, _⟩ => show win1_1.index t (1 : Fin 2) * 256 + 1 * q.val = q.val; rw [e11]; omega

/-- Every point's block of the bias is the whole row. -/
theorem iblk_b2 (c : Dev nD) (t : Fin cfg1.N) (q : Fin 256) :
    (iblk1 V c 2 t : Vec Ideal S1x256 .f32) (ix2 0 q) = (V c main_v46 : Cert.Sage.Arr2 1 256) (ix2 0 q) := by
  obtain ⟨-, -, -, -, e20, e21, -⟩ := idx_facts t
  unfold iblk1
  rw [View.read_apply]
  show V c main_v46 _ = V c main_v46 _
  refine congrArg (V c main_v46) (funext fun a => Fin.ext ?_)
  match a with
  | ⟨0, _⟩ => show win1_2.index t (0 : Fin 2) * 1 + 1 * 0 = 0; rw [e20]
  | ⟨1, _⟩ => show win1_2.index t (1 : Fin 2) * 256 + 1 * q.val = q.val; rw [e21]; omega

/-- What point `t` writes back is block `t` of the dense layer of the arrays as the region finds them. -/
theorem flushed_eq (c : Dev nD) (t : Fin cfg1.N) :
    (dat1 V c).flushed 3 t = ((cfg1.win 3).blk t).view.read (Elt Ideal)
      (Cert.Sage.dense256 (V c main_v43) (V c main_v45) (V c main_v46)) := by
  obtain ⟨-, -, -, -, -, -, e30, e31, ht⟩ := idx_facts t
  show (cfg1.win 3).cut (grid1.coords t) ((dat1 V c).after 3 t) = _
  rw [after1_3]
  unfold out1_3
  rw [View.canon_unit_zero hz]
  simp only [View.ld_unit_zero (S := S5000x512) hz, View.ld_unit_zero (S := S512x256) hz, View.ld_unit_zero (S := S1x256) hz]
  funext j
  show k1_pay1 (F := Ideal) (iblk1 V c 0 t) (iblk1 V c 1 t) (iblk1 V c 2 t) j
    = Cert.Sage.dense256 (V c main_v43) (V c main_v45) (V c main_v46) (((cfg1.win 3).blk t).view.emb j)
  exact point_eq (iblk1 V c 0 t) (iblk1 V c 1 t) (iblk1 V c 2 t) (V c main_v43) (V c main_v45) (V c main_v46) t.val ht
    (fun p k => iblk_cat V c t p k ht) (fun k q => iblk_wc V c t k q) (fun q => iblk_b2 V c t q) j (((cfg1.win 3).blk t).view.emb j)
    (by show win1_3.index t (0 : Fin 2) * 5000 + 1 * (j 0).val = t.val * 5000 + (j 0).val; rw [e30]; omega)
    (by show win1_3.index t (1 : Fin 2) * 256 + 1 * (j 1).val = (j 1).val; rw [e31]; omega)

/-- An index of the output is in point `t`'s block iff each coordinate is in the block's range on its axis. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v47).slice (win1_3.rect t)).set ↔ _
  rw [View.set_slice_whole, Rect.mem_set_unit]
  exact Iff.rfl

/-- The ten row blocks cover the output: row `r` is in the block of point `r / 5000`. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := N_1
  refine ⟨⟨(i 0).val / 5000, by rw [hN]; omega⟩, flush1_3 _, ?_⟩
  obtain ⟨-, -, -, -, -, -, e30, e31, -⟩ := idx_facts ⟨(i 0).val / 5000, by rw [hN]; omega⟩
  rw [mem_blk]
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 256 ≤ (i 1).val ∧ (i 1).val < win1_3.index _ (1 : Fin 2) * 256 + 256; rw [e31]; omega

/-- The output array after the region: the dense layer of the arrays as the region finds them. -/
theorem final (c : Dev nD) : (dat1 V c).arrAt 3 cfg1.N
    = Cert.Sage.dense256 (V c main_v43) (V c main_v45) (V c main_v46) :=
  (dat1 V c).arrAt_eq_of_cover 3 (Cert.Sage.dense256 (V c main_v43) (V c main_v45) (V c main_v46))
    (fun t _ => flushed_eq V c t) cover

end Cert.KernelIdeal.Region1

end
-- ==== Proof.KRegion2.lean ====
/-
  The third kernel region as one function of the arrays it reads. The region runs ten grid points; point `t` reads rows
  `5000·t … 5000·t + 4999` of the concatenated features, the whole combined weight matrix and the bias row, and writes back
  the same rows of the output. Every output entry `(r, j)` therefore ends as
      ∑ₖ cat[r,k]·wc[k,j] + b2[0,j],
  the ten row blocks covering the 50000 rows.
-/
import proofs.«134962_j996432413260_1_alg».proof.Proof.Gen.KernelIdeal.Frame
import proofs.«134962_j996432413260_1_alg».proof.Proof.KPay
import proofs.«134962_j996432413260_1_alg».proof.Proof.Spec
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at grid point `t`: the features and the output move down one block of rows
    per point, the weights and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- One entry of what a point stores is the dense layer's entry at the row the point's block starts at plus the
    row inside the block — stated over a block, a matrix and a bias row that read the arrays as hypotheses say. -/
theorem point_eq (x0 : Vec Ideal S5000x512 .f32) (x1 : Vec Ideal S512x128 .f32) (x2 : Vec Ideal S1x128 .f32)
    (cat : Cert.Sage.Arr2 50000 512) (wc : Cert.Sage.Arr2 512 128) (b2 : Cert.Sage.Arr2 1 128) (tv : Nat) (htv : tv < 10)
    (h0 : ∀ (p : Fin 5000) (k : Fin 512), x0 (ix2 p k) = cat (ix2 ⟨tv * 5000 + p.val, by omega⟩ k))
    (h1 : ∀ (k : Fin 512) (q : Fin 128), x1 (ix2 k q) = wc (ix2 k q))
    (h2 : ∀ q : Fin 128, x2 (ix2 0 q) = b2 (ix2 0 q))
    (j : S5000x128.Idx) (i : S50000x128.Idx) (hi0 : (i 0).val = tv * 5000 + (j 0).val) (hi1 : (i 1).val = (j 1).val) :
    k2_pay1 (F := Ideal) x0 x1 x2 j = Cert.Sage.dense128 cat wc b2 i := by
  obtain ⟨p, q, rfl⟩ : ∃ (p : Fin 5000) (q : Fin 128), j = ix2 p q := ⟨j 0, j 1, eq_ix2 j⟩
  rw [Cert.KernelIdeal.Pay.pay2_apply]
  unfold Cert.Sage.dense128 Cert.Sage.dense128Entry
  have e0 : (⟨(i 0).val, idx2_lt0 i⟩ : Fin 50000) = ⟨tv * 5000 + p.val, by omega⟩ := Fin.ext hi0
  have e1 : (⟨(i 1).val, idx2_lt1 i⟩ : Fin 128) = q := Fin.ext hi1
  rw [e0, e1]
  simp only [h0, h1, h2]

/-- A point's block of the features is the rows of the array it starts at. -/
theorem iblk_cat (c : Dev nD) (t : Fin cfg2.N) (p : Fin 5000) (k : Fin 512) (ht : t.val < 10) :
    (iblk2 V c 0 t : Vec Ideal S5000x512 .f32) (ix2 p k)
      = (V c main_v67 : Cert.Sage.Arr2 50000 512) (ix2 ⟨t.val * 5000 + p.val, by omega⟩ k) := by
  obtain ⟨e00, e01, -⟩ := idx_facts t
  unfold iblk2
  rw [View.read_apply]
  show V c main_v67 _ = V c main_v67 _
  refine congrArg (V c main_v67) (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 512 + 1 * k.val = k.val; rw [e01]; omega

/-- Every point's block of the weights is the whole matrix. -/
theorem iblk_wc (c : Dev nD) (t : Fin cfg2.N) (k : Fin 512) (q : Fin 128) :
    (iblk2 V c 1 t : Vec Ideal S512x128 .f32) (ix2 k q) = (V c main_v69 : Cert.Sage.Arr2 512 128) (ix2 k q) := by
  obtain ⟨-, -, e10, e11, -⟩ := idx_facts t
  unfold iblk2
  rw [View.read_apply]
  show V c main_v69 _ = V c main_v69 _
  refine congrArg (V c main_v69) (funext fun a => Fin.ext ?_)
  match a with
  | ⟨0, _⟩ => show win2_1.index t (0 : Fin 2) * 512 + 1 * k.val = k.val; rw [e10]; omega
  | ⟨1, _⟩ => show win2_1.index t (1 : Fin 2) * 128 + 1 * q.val = q.val; rw [e11]; omega

/-- Every point's block of the bias is the whole row. -/
theorem iblk_b2 (c : Dev nD) (t : Fin cfg2.N) (q : Fin 128) :
    (iblk2 V c 2 t : Vec Ideal S1x128 .f32) (ix2 0 q) = (V c main_v70 : Cert.Sage.Arr2 1 128) (ix2 0 q) := by
  obtain ⟨-, -, -, -, e20, e21, -⟩ := idx_facts t
  unfold iblk2
  rw [View.read_apply]
  show V c main_v70 _ = V c main_v70 _
  refine congrArg (V c main_v70) (funext fun a => Fin.ext ?_)
  match a with
  | ⟨0, _⟩ => show win2_2.index t (0 : Fin 2) * 1 + 1 * 0 = 0; rw [e20]
  | ⟨1, _⟩ => show win2_2.index t (1 : Fin 2) * 128 + 1 * q.val = q.val; rw [e21]; omega

/-- What point `t` writes back is block `t` of the dense layer of the arrays as the region finds them. -/
theorem flushed_eq (c : Dev nD) (t : Fin cfg2.N) :
    (dat2 V c).flushed 3 t = ((cfg2.win 3).blk t).view.read (Elt Ideal)
      (Cert.Sage.dense128 (V c main_v67) (V c main_v69) (V c main_v70)) := by
  obtain ⟨-, -, -, -, -, -, e30, e31, ht⟩ := idx_facts t
  show (cfg2.win 3).cut (grid2.coords t) ((dat2 V c).after 3 t) = _
  rw [after2_3]
  unfold out2_3
  rw [View.canon_unit_zero hz]
  simp only [View.ld_unit_zero (S := S5000x512) hz, View.ld_unit_zero (S := S512x128) hz, View.ld_unit_zero (S := S1x128) hz]
  funext j
  show k2_pay1 (F := Ideal) (iblk2 V c 0 t) (iblk2 V c 1 t) (iblk2 V c 2 t) j
    = Cert.Sage.dense128 (V c main_v67) (V c main_v69) (V c main_v70) (((cfg2.win 3).blk t).view.emb j)
  exact point_eq (iblk2 V c 0 t) (iblk2 V c 1 t) (iblk2 V c 2 t) (V c main_v67) (V c main_v69) (V c main_v70) t.val ht
    (fun p k => iblk_cat V c t p k ht) (fun k q => iblk_wc V c t k q) (fun q => iblk_b2 V c t q) j (((cfg2.win 3).blk t).view.emb j)
    (by show win2_3.index t (0 : Fin 2) * 5000 + 1 * (j 0).val = t.val * 5000 + (j 0).val; rw [e30]; omega)
    (by show win2_3.index t (1 : Fin 2) * 128 + 1 * (j 1).val = (j 1).val; rw [e31]; omega)

/-- An index of the output is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v71).slice (win2_3.rect t)).set ↔ _
  rw [View.set_slice_whole, Rect.mem_set_unit]
  exact Iff.rfl

/-- The ten row blocks cover the output: row `r` is in the block of point `r / 5000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_3 _, ?_⟩
  obtain ⟨-, -, -, -, -, -, e30, e31, -⟩ := idx_facts ⟨(i 0).val / 5000, by rw [hN]; omega⟩
  rw [mem_blk]
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e31]; omega

/-- The output array after the region: the dense layer of the arrays as the region finds them. -/
theorem final (c : Dev nD) : (dat2 V c).arrAt 3 cfg2.N
    = Cert.Sage.dense128 (V c main_v67) (V c main_v69) (V c main_v70) :=
  (dat2 V c).arrAt_eq_of_cover 3 (Cert.Sage.dense128 (V c main_v67) (V c main_v69) (V c main_v70))
    (fun t _ => flushed_eq V c t) cover

end Cert.KernelIdeal.Region2

end
-- ==== Proof.KAgg.lean ====
/-
  The aggregation step the kernel's program performs on the host before each of its three products: gather the rows
  of the current features at the edge sources (negative indices shifted up by the number of nodes), add them into the
  rows of the edge targets, and divide each row by its in-degree, at least one. It is, operation for operation, the
  reference's aggregation.
-/
import proofs.«134962_j996432413260_1_alg».proof.Proof.Gen.KernelIdeal
import proofs.«134962_j996432413260_1_alg».proof.Proof.RefLayers

noncomputable section

namespace Cert.KernelIdeal.Agg

open Cert.KernelIdeal Cert.KernelIdeal.Gen Idealize.ShloMosaic

/-- Mean over in-neighbours, as the kernel's program spells it. -/
def aggK {F : FTy → Type} [FloatOps F] (h : (⟨S50000x256, .f32⟩ : BufTy).Contents (Elt F))
    (src dst : (⟨S800000, .i32⟩ : BufTy).Contents (Elt F)) : (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The two programs' aggregations are one function: the same operations over the same shapes. -/
theorem aggK_eq_meanAgg {F : FTy → Type} [FloatOps F] (h : (⟨S50000x256, .f32⟩ : BufTy).Contents (Elt F))
    (src dst : (⟨S800000, .i32⟩ : BufTy).Contents (Elt F)) :
    aggK h src dst = Cert.ReferenceIdeal.Layers.meanAgg h src dst := rfl

end Cert.KernelIdeal.Agg

end
-- ==== Proof.KHost0.lean ====
/-
  What the first kernel region finds in its three input arrays, as terms of the program's arguments: the node features
  beside their aggregation (512 columns), the two first-layer weight matrices side by side and transposed (512 rows),
  and the first-layer bias as one row.
-/
import proofs.«134962_j996432413260_1_alg».proof.Proof.Gen.KernelIdeal.Frame
import proofs.«134962_j996432413260_1_alg».proof.Proof.KAgg
import Idealize.ShloMosaic.Lib.StableHlo.Run

set_option maxRecDepth 16384

noncomputable section

namespace Cert.KernelIdeal.Host0

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The features beside their aggregation. -/
theorem cat_eq (c : Dev nD) : V1 m ρ c main_v19
    = concatenate S50000x512 1 [⟨S50000x256, m ((c : Thread nD τ).loc main_arg0)⟩,
        ⟨S50000x256, aggK (m ((c : Thread nD τ).loc main_arg0)) (m ((c : Thread nD τ).loc main_arg10)) (m ((c : Thread nD τ).loc main_arg11))⟩]
        concatenates_S50000x256_S50000x256_S50000x512_d1 := by
  show StableHlo.after hostOps0 (W0 m ρ c) (Proc.devRef .tc main_v19) = _
  after_results <;> rfl

set_option maxHeartbeats 8000000 in
/-- The two weight matrices side by side, transposed. -/
theorem wc_eq (c : Dev nD) : V1 m ρ c main_v21
    = transpose S512x256 [1, 0] (concatenate S256x512 1 [⟨S256x256, m ((c : Thread nD τ).loc main_arg1)⟩,
        ⟨S256x256, m ((c : Thread nD τ).loc main_arg2)⟩] concatenates_S256x256_S256x256_S256x512_d1) transposes_S256x512_S512x256_1_0 := by
  show StableHlo.after hostOps0 (W0 m ρ c) (Proc.devRef .tc main_v21) = _
  after_results <;> rfl

set_option maxHeartbeats 8000000 in
/-- The bias as one row. -/
theorem b2_eq (c : Dev nD) : V1 m ρ c main_v22 = shapeCast S1x256 (m ((c : Thread nD τ).loc main_arg3)) shapeCasts_S256_S1x256 := by
  show StableHlo.after hostOps0 (W0 m ρ c) (Proc.devRef .tc main_v22) = _
  after_results <;> rfl

end Cert.KernelIdeal.Host0

end
-- ==== Proof.KHost1.lean ====
/-
  What the second kernel region finds in its three input arrays, as terms of the first region's output and of the
  arrays still as launched: the hidden features beside their aggregation (512 columns), the two second-layer weight
  matrices side by side and transposed (512 rows), and the second-layer bias as one row.
-/
import proofs.«134962_j996432413260_1_alg».proof.Proof.Gen.KernelIdeal.Frame
import proofs.«134962_j996432413260_1_alg».proof.Proof.KAgg
import Idealize.ShloMosaic.Lib.StableHlo.Run

set_option maxRecDepth 16384

noncomputable section

namespace Cert.KernelIdeal.Host1

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The hidden features beside their aggregation. -/
theorem cat_eq (c : Dev nD) : V3 m ρ c main_v43
    = concatenate S50000x512 1 [⟨S50000x256, W2 m ρ c (Proc.devRef .tc main_v23)⟩,
        ⟨S50000x256, aggK (W2 m ρ c (Proc.devRef .tc main_v23)) (W2 m ρ c (Proc.devRef .tc main_arg10)) (W2 m ρ c (Proc.devRef .tc main_arg11))⟩]
        concatenates_S50000x256_S50000x256_S50000x512_d1 := by
  show StableHlo.after hostOps1 (W2 m ρ c) (Proc.devRef .tc main_v43) = _
  after_results <;> rfl

set_option maxHeartbeats 8000000 in
/-- The two weight matrices side by side, transposed. -/
theorem wc_eq (c : Dev nD) : V3 m ρ c main_v45
    = transpose S512x256 [1, 0] (concatenate S256x512 1 [⟨S256x256, W2 m ρ c (Proc.devRef .tc main_arg4)⟩,
        ⟨S256x256, W2 m ρ c (Proc.devRef .tc main_arg5)⟩] concatenates_S256x256_S256x256_S256x512_d1) transposes_S256x512_S512x256_1_0 := by
  show StableHlo.after hostOps1 (W2 m ρ c) (Proc.devRef .tc main_v45) = _
  after_results <;> rfl

set_option maxHeartbeats 8000000 in
/-- The bias as one row. -/
theorem b2_eq (c : Dev nD) : V3 m ρ c main_v46 = shapeCast S1x256 (W2 m ρ c (Proc.devRef .tc main_arg6)) shapeCasts_S256_S1x256 := by
  show StableHlo.after hostOps1 (W2 m ρ c) (Proc.devRef .tc main_v46) = _
  after_results <;> rfl

end Cert.KernelIdeal.Host1

end
-- ==== Proof.KHost2.lean ====
/-
  What the third kernel region finds in its three input arrays, as terms of the second region's output and of the
  arrays still as launched: the hidden features beside their aggregation (512 columns), the two last-layer weight
  matrices (128 rows each) side by side and transposed (512 rows), and the last-layer bias as one row.
-/
import proofs.«134962_j996432413260_1_alg».proof.Proof.Gen.KernelIdeal.Frame
import proofs.«134962_j996432413260_1_alg».proof.Proof.KAgg
import Idealize.ShloMosaic.Lib.StableHlo.Run

set_option maxRecDepth 16384

noncomputable section

namespace Cert.KernelIdeal.Host2

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The hidden features beside their aggregation. -/
theorem cat_eq (c : Dev nD) : V5 m ρ c main_v67
    = concatenate S50000x512 1 [⟨S50000x256, W4 m ρ c (Proc.devRef .tc main_v47)⟩,
        ⟨S50000x256, aggK (W4 m ρ c (Proc.devRef .tc main_v47)) (W4 m ρ c (Proc.devRef .tc main_arg10)) (W4 m ρ c (Proc.devRef .tc main_arg11))⟩]
        concatenates_S50000x256_S50000x256_S50000x512_d1 := by
  show StableHlo.after hostOps2 (W4 m ρ c) (Proc.devRef .tc main_v67) = _
  after_results <;> rfl

set_option maxHeartbeats 8000000 in
/-- The two weight matrices side by side, transposed. -/
theorem wc_eq (c : Dev nD) : V5 m ρ c main_v69
    = transpose S512x128 [1, 0] (concatenate S128x512 1 [⟨S128x256, W4 m ρ c (Proc.devRef .tc main_arg7)⟩,
        ⟨S128x256, W4 m ρ c (Proc.devRef .tc main_arg8)⟩] concatenates_S128x256_S128x256_S128x512_d1) transposes_S128x512_S512x128_1_0 := by
  show StableHlo.after hostOps2 (W4 m ρ c) (Proc.devRef .tc main_v69) = _
  after_results <;> rfl

set_option maxHeartbeats 8000000 in
/-- The bias as one row. -/
theorem b2_eq (c : Dev nD) : V5 m ρ c main_v70 = shapeCast S1x128 (W4 m ρ c (Proc.devRef .tc main_arg9)) shapeCasts_S128_S1x128 := by
  show StableHlo.after hostOps2 (W4 m ρ c) (Proc.devRef .tc main_v70) = _
  after_results <;> rfl

end Cert.KernelIdeal.Host2

end
-- ==== Proof.KCat.lean ====
/-
  The operands of the kernel's three products, read entry by entry.

  The kernel forms each layer as ONE product: the features and the aggregated features are laid side by side
  (`[h | a]`, 512 columns), the two weight matrices are laid side by side and the result transposed (512 rows), and the
  bias becomes a one-row matrix. Read at an index, each of these is an entry of one of the original arrays: a column
  below 256 of a side-by-side pair belongs to the first array, a column `k + 256` to the second at column `k`; a
  transposed matrix reads the swapped index; a vector viewed as one row reads the same position. With these five
  readings the single product is the layer of `Cert.Sage` (`dense256_eq_layer`, `dense128_eq_layer`).
-/
import proofs.«134962_j996432413260_1_alg».proof.Proof.Gen.KernelIdeal
import proofs.«134962_j996432413260_1_alg».proof.Proof.Spec
import Idealize.ShloMosaic.Lib.Pipeline.Value
import Idealize.ShloMosaic.Lib.ValueIdx
import Idealize.ShloMosaic.Lib.ValueLayout

noncomputable section

namespace Cert.KernelIdeal.Cat

open Cert.KernelIdeal Cert.KernelIdeal.Gen Idealize.ShloMosaic Idealize.ShloMosaic.ValueIdx

/-! ## Two arrays of 256 columns side by side -/

section Pair
variable {α : Type} {n : Nat}

/-- Column `k < 256` of `[x | y]` is column `k` of `x`. -/
theorem pair_left (x y : (⟨2, ![n, 256]⟩ : Shape).Idx → α)
    (hc : Shape.Concatenates [(⟨2, ![n, 256]⟩ : Shape), ⟨2, ![n, 256]⟩] ⟨2, ![n, 512]⟩ 1) (r : Fin n) (k : Fin 256) :
    concatenate ⟨2, ![n, 512]⟩ 1 [⟨⟨2, ![n, 256]⟩, x⟩, ⟨⟨2, ![n, 256]⟩, y⟩] hc (ix2 r ⟨k.val, by omega⟩) = x (ix2 r k) :=
  concatenate_pair_apply_left _ x y hc _ rfl (ix2 r k) fun b => match b with
    | ⟨0, _⟩ => rfl
    | ⟨1, _⟩ => rfl

/-- Column `k + 256` of `[x | y]` is column `k` of `y`. -/
theorem pair_right (x y : (⟨2, ![n, 256]⟩ : Shape).Idx → α)
    (hc : Shape.Concatenates [(⟨2, ![n, 256]⟩ : Shape), ⟨2, ![n, 256]⟩] ⟨2, ![n, 512]⟩ 1) (r : Fin n) (k : Fin 256) :
    concatenate ⟨2, ![n, 512]⟩ 1 [⟨⟨2, ![n, 256]⟩, x⟩, ⟨⟨2, ![n, 256]⟩, y⟩] hc (ix2 r ⟨k.val + 256, by omega⟩) = y (ix2 r k) :=
  concatenate_pair_apply_right _ x y hc _ rfl rfl (ix2 r k)
    (fun b => match b with
      | ⟨0, _⟩ => fun _ => rfl
      | ⟨1, _⟩ => fun hne => absurd rfl hne)
    rfl

/-- Row `k < 256`, column `j` of the transpose of `[x | y]` is entry `(j, k)` of `x`. -/
theorem pairT_left (x y : (⟨2, ![n, 256]⟩ : Shape).Idx → α)
    (hc : Shape.Concatenates [(⟨2, ![n, 256]⟩ : Shape), ⟨2, ![n, 256]⟩] ⟨2, ![n, 512]⟩ 1)
    (ht : (⟨2, ![n, 512]⟩ : Shape).Transposes [1, 0] ⟨2, ![512, n]⟩) (j : Fin n) (k : Fin 256) :
    transpose ⟨2, ![512, n]⟩ [1, 0] (concatenate ⟨2, ![n, 512]⟩ 1 [⟨⟨2, ![n, 256]⟩, x⟩, ⟨⟨2, ![n, 256]⟩, y⟩] hc) ht
      (ix2 ⟨k.val, by omega⟩ j) = x (ix2 j k) :=
  (transpose_ix2_apply _ ht ⟨k.val, by omega⟩ j).trans (pair_left x y hc j k)

/-- Row `k + 256`, column `j` of the transpose of `[x | y]` is entry `(j, k)` of `y`. -/
theorem pairT_right (x y : (⟨2, ![n, 256]⟩ : Shape).Idx → α)
    (hc : Shape.Concatenates [(⟨2, ![n, 256]⟩ : Shape), ⟨2, ![n, 256]⟩] ⟨2, ![n, 512]⟩ 1)
    (ht : (⟨2, ![n, 512]⟩ : Shape).Transposes [1, 0] ⟨2, ![512, n]⟩) (j : Fin n) (k : Fin 256) :
    transpose ⟨2, ![512, n]⟩ [1, 0] (concatenate ⟨2, ![n, 512]⟩ 1 [⟨⟨2, ![n, 256]⟩, x⟩, ⟨⟨2, ![n, 256]⟩, y⟩] hc) ht
      (ix2 ⟨k.val + 256, by omega⟩ j) = y (ix2 j k) :=
  (transpose_ix2_apply _ ht ⟨k.val + 256, by omega⟩ j).trans (pair_right x y hc j k)

end Pair

/-! ## The two layers -/

/-- The single product of the concatenated operands is the layer: with the features and the aggregated features side by side, the two weight matrices side by side and transposed, and the bias as one row. -/
theorem host256 (h a : Vec Ideal S50000x256 .f32) (Ws Wn : Vec Ideal S256x256 .f32) (b : Vec Ideal S256 .f32) :
    Cert.Sage.dense256
      (concatenate S50000x512 1 [⟨S50000x256, h⟩, ⟨S50000x256, a⟩] concatenates_S50000x256_S50000x256_S50000x512_d1)
      (transpose S512x256 [1, 0] (concatenate S256x512 1 [⟨S256x256, Ws⟩, ⟨S256x256, Wn⟩] concatenates_S256x256_S256x256_S256x512_d1) transposes_S256x512_S512x256_1_0)
      (shapeCast S1x256 b shapeCasts_S256_S1x256)
    = Cert.Sage.layer256 h a Ws Wn b :=
  Cert.Sage.dense256_eq_layer _ _ _ h a Ws Wn b
    (fun r k => pair_left h a concatenates_S50000x256_S50000x256_S50000x512_d1 r k)
    (fun r k => pair_right h a concatenates_S50000x256_S50000x256_S50000x512_d1 r k)
    (fun j k => pairT_left Ws Wn concatenates_S256x256_S256x256_S256x512_d1 transposes_S256x512_S512x256_1_0 j k)
    (fun j k => pairT_right Ws Wn concatenates_S256x256_S256x256_S256x512_d1 transposes_S256x512_S512x256_1_0 j k)
    (fun j => shapeCast_a_1a_apply b shapeCasts_S256_S1x256 0 j)

/-- The same for the last layer: 128 output features, no activation. -/
theorem host128 (h a : Vec Ideal S50000x256 .f32) (Ws Wn : Vec Ideal S128x256 .f32) (b : Vec Ideal S128 .f32) :
    Cert.Sage.dense128
      (concatenate S50000x512 1 [⟨S50000x256, h⟩, ⟨S50000x256, a⟩] concatenates_S50000x256_S50000x256_S50000x512_d1)
      (transpose S512x128 [1, 0] (concatenate S128x512 1 [⟨S128x256, Ws⟩, ⟨S128x256, Wn⟩] concatenates_S128x256_S128x256_S128x512_d1) transposes_S128x512_S512x128_1_0)
      (shapeCast S1x128 b shapeCasts_S128_S1x128)
    = Cert.Sage.layer128 h a Ws Wn b :=
  Cert.Sage.dense128_eq_layer _ _ _ h a Ws Wn b
    (fun r k => pair_left h a concatenates_S50000x256_S50000x256_S50000x512_d1 r k)
    (fun r k => pair_right h a concatenates_S50000x256_S50000x256_S50000x512_d1 r k)
    (fun j k => pairT_left Ws Wn concatenates_S128x256_S128x256_S128x512_d1 transposes_S128x512_S512x128_1_0 j k)
    (fun j k => pairT_right Ws Wn concatenates_S128x256_S128x256_S128x512_d1 transposes_S128x512_S512x128_1_0 j k)
    (fun j => shapeCast_a_1a_apply b shapeCasts_S128_S1x128 0 j)

end Cert.KernelIdeal.Cat

end
-- ==== Proof.KKept.lean ====
/-
  An argument array is still as launched at the exit of the first and of the second region.

  The run's buffer contents are a fold from the launch memory: a stretch of host operations changes only the buffers
  its operations write, and a region changes only the buffers of its own arrays. No host operation writes an argument
  array, and the arguments named here are not among the arrays of the regions walked through, so no region writes
  them either. Hence the fold, read at such an argument's buffer, walks back step by step to the launch memory: at the
  exit of the first region through that region and the host stretch before it; at the exit of the second region through
  that region, the stretch between the two regions, the first region and the stretch before it.
-/
import proofs.«134962_j996432413260_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-! ## At the exit of the first region: the region, then the host stretch before it -/

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## At the exit of the second region: the region, the stretch between the regions, the first region, the first stretch -/

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

end Cert.KernelIdeal.Kept

end
-- ==== Proof.KValue.lean ====
/-
  The kernel's program, end to end, on the extended reals. Each of its three regions leaves the dense layer of the
  arrays it finds; what it finds is the previous features beside their aggregation, the layer's two weight matrices
  side by side and transposed, and the layer's bias as one row; and the single product of these concatenated operands
  is the layer `h·Wsᵀ + agg·Wnᵀ + b`. So the result array ends as the three layers composed: the same function of
  the arguments as the reference's result.
-/
import proofs.«134962_j996432413260_1_alg».proof.Proof.KLaunch
import proofs.«134962_j996432413260_1_alg».proof.Proof.KRegion0
import proofs.«134962_j996432413260_1_alg».proof.Proof.KRegion1
import proofs.«134962_j996432413260_1_alg».proof.Proof.KRegion2
import proofs.«134962_j996432413260_1_alg».proof.Proof.KHost0
import proofs.«134962_j996432413260_1_alg».proof.Proof.KHost1
import proofs.«134962_j996432413260_1_alg».proof.Proof.KHost2
import proofs.«134962_j996432413260_1_alg».proof.Proof.KCat
import proofs.«134962_j996432413260_1_alg».proof.Proof.KKept
import proofs.«134962_j996432413260_1_alg».proof.Proof.KAgg
import proofs.«134962_j996432413260_1_alg».proof.Proof.RefLayers

set_option maxRecDepth 16384

noncomputable section

namespace Cert.KernelIdeal.Net

open Cert.KernelIdeal Cert.KernelIdeal.Gen Cert.KernelIdeal.Agg
open Idealize.ShloMosaic Idealize.ShloMosaic.TcCoe Idealize.SL.Sem
open Cert.ReferenceIdeal.Layers (meanAgg net)

variable (m : (ℓ : Loc nD τ sig) → Buf (Elt Ideal) ℓ) (ρ : Dev nD → PrngReg)

/-- After the first region its output holds the first layer of the arguments. -/
theorem h1_eq (c : Dev nD) : W2 m ρ c (Proc.devRef .tc main_v23)
    = Cert.Sage.layer256 (m ((c : Thread nD τ).loc main_arg0)) (meanAgg (m ((c : Thread nD τ).loc main_arg0)) (m ((c : Thread nD τ).loc main_arg10)) (m ((c : Thread nD τ).loc main_arg11))) (m ((c : Thread nD τ).loc main_arg1)) (m ((c : Thread nD τ).loc main_arg2)) (m ((c : Thread nD τ).loc main_arg3)) := by
  have e : W2 m ρ c (Proc.devRef .tc main_v23) = (dat0 (V1 m ρ) c).arrAt 3 cfg0.N := W2_arr m ρ c 3
  rw [e, Cert.KernelIdeal.Region0.final (V1 m ρ) c, Cert.KernelIdeal.Host0.cat_eq, Cert.KernelIdeal.Host0.wc_eq,
    Cert.KernelIdeal.Host0.b2_eq, Cert.KernelIdeal.Cat.host256, aggK_eq_meanAgg]

/-- After the second region its output holds the second layer of the first. -/
theorem h2_eq (c : Dev nD) : W4 m ρ c (Proc.devRef .tc main_v47)
    = Cert.Sage.layer256 (W2 m ρ c (Proc.devRef .tc main_v23))
        (meanAgg (W2 m ρ c (Proc.devRef .tc main_v23)) (m ((c : Thread nD τ).loc main_arg10)) (m ((c : Thread nD τ).loc main_arg11))) (m ((c : Thread nD τ).loc main_arg4)) (m ((c : Thread nD τ).loc main_arg5)) (m ((c : Thread nD τ).loc main_arg6)) := by
  have e : W4 m ρ c (Proc.devRef .tc main_v47) = (dat1 (V3 m ρ) c).arrAt 3 cfg1.N := W4_arr m ρ c 3
  rw [e, Cert.KernelIdeal.Region1.final (V3 m ρ) c, Cert.KernelIdeal.Host1.cat_eq, Cert.KernelIdeal.Host1.wc_eq,
    Cert.KernelIdeal.Host1.b2_eq, Cert.KernelIdeal.Cat.host256, aggK_eq_meanAgg,
    Cert.KernelIdeal.Kept.W2_main_arg4, Cert.KernelIdeal.Kept.W2_main_arg5, Cert.KernelIdeal.Kept.W2_main_arg6,
    Cert.KernelIdeal.Kept.W2_main_arg10, Cert.KernelIdeal.Kept.W2_main_arg11]

/-- After the third region the result holds the last layer of the second. -/
theorem out_eq (c : Dev nD) : W6 m ρ c (Proc.devRef .tc main_v71)
    = Cert.Sage.layer128 (W4 m ρ c (Proc.devRef .tc main_v47))
        (meanAgg (W4 m ρ c (Proc.devRef .tc main_v47)) (m ((c : Thread nD τ).loc main_arg10)) (m ((c : Thread nD τ).loc main_arg11))) (m ((c : Thread nD τ).loc main_arg7)) (m ((c : Thread nD τ).loc main_arg8)) (m ((c : Thread nD τ).loc main_arg9)) := by
  have e : W6 m ρ c (Proc.devRef .tc main_v71) = (dat2 (V5 m ρ) c).arrAt 3 cfg2.N := W6_arr m ρ c 3
  rw [e, Cert.KernelIdeal.Region2.final (V5 m ρ) c, Cert.KernelIdeal.Host2.cat_eq, Cert.KernelIdeal.Host2.wc_eq,
    Cert.KernelIdeal.Host2.b2_eq, Cert.KernelIdeal.Cat.host128, aggK_eq_meanAgg,
    Cert.KernelIdeal.Kept.W4_main_arg7, Cert.KernelIdeal.Kept.W4_main_arg8, Cert.KernelIdeal.Kept.W4_main_arg9,
    Cert.KernelIdeal.Kept.W4_main_arg10, Cert.KernelIdeal.Kept.W4_main_arg11]

/-- The result array ends as the three layers of the arguments. -/
theorem result_eq (c : Dev nD) : W6 m ρ c (Proc.devRef .tc main_v71)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [out_eq, h2_eq, h1_eq]
  rfl

/-- Every weakly fair execution of the kernel's program terminates without a fault, with the result array at the
    three layers of the arguments and the arguments unchanged. -/
theorem run : θ_run defs (onTc (τ := τ) (main (F := Ideal))) ⟨m, fun _ => 0, ρ⟩ (fun r => ∀ c : Dev nD,
      r.2.mem ((c.tc : Thread nD τ).loc main_v71) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩)
    (Cert.KernelIdeal.Launched.run_result (F := Ideal) m ρ)

end Cert.KernelIdeal.Net

end
-- ==== Proof.lean ====
/-
  Three stacked SAGE layers with mean aggregation: the kernel's program against its reference, on the extended reals.

  Both programs aggregate the current node features over the edges in the same way (gather at the sources, add into the
  targets, divide by the in-degree, at least one). The reference then forms `h·Wsᵀ + agg·Wnᵀ + b`; the kernel's program
  forms ONE product `[h | agg]·[Ws | Wn]ᵀ + b` in a kernel of ten row blocks. The sum over the 512 concatenated columns
  splits into the two sums over 256, by commutativity and associativity of `+` alone, so the two results are equal
  whatever the entries are. Both apply the maximum with zero after the first two layers.

  The frames of the kernel's two programs are the generated ones; the reference's frame is its generated run with the
  result dropped; the idealization rewrote nothing, so `preserves` asks for nothing.
-/
import proofs.«134962_j996432413260_1_alg».proof.Defs
import proofs.«134962_j996432413260_1_alg».proof.Proof.Gen.Kernel
import proofs.«134962_j996432413260_1_alg».proof.Proof.Gen.Kernel.Frame
import proofs.«134962_j996432413260_1_alg».proof.Proof.Gen.KernelIdeal
import proofs.«134962_j996432413260_1_alg».proof.Proof.Gen.KernelIdeal.Frame
import proofs.«134962_j996432413260_1_alg».proof.Proof.Gen.ReferenceIdeal
import proofs.«134962_j996432413260_1_alg».proof.Proof.Gen.ReferenceIdeal.Run
import proofs.«134962_j996432413260_1_alg».proof.Proof.Gen.Pre_finite_inputs
import proofs.«134962_j996432413260_1_alg».proof.Proof.RefLayers
import proofs.«134962_j996432413260_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the three layers composed, of arguments that agree. -/
theorem algebraic : Cert.algebraic_KernelIdeal_ReferenceIdeal := by
  intro m ρ m' ρ' _ hagree
  refine ⟨fun c => Cert.ReferenceIdeal.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.result_eq_net]
  obtain ⟨a0, a1, a2, a3, a4, a5, a6, a7, a8, a9, a10, a11⟩ := hagree c
  rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
